-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg5 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x256 .f32) (main_arg3 : FVec F S256 .f32) (main_arg4 : FVec F S256x256 .f32) (main_arg5 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S50000x256 : Shape := ⟨2, ![50000, 256]⟩
abbrev S5000x128 : Shape := ⟨2, ![5000, 128]⟩
abbrev S5000x256 : Shape := ⟨2, ![5000, 256]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩

abbrev nBuf : Space → Nat
  | .hbm => 120
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x256, .f32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S50000, .i32⟩
  | .hbm, ⟨67, _⟩ => ⟨S850000, .i32⟩
  | .hbm, ⟨68, _⟩ => ⟨S850000, .i32⟩
  | .hbm, ⟨69, _⟩ => ⟨S_, .f32⟩
  | .hbm, ⟨70, _⟩ => ⟨S850000, .f32⟩
  | .hbm, ⟨71, _⟩ => ⟨S_, .f32⟩
  | .hbm, ⟨72, _⟩ => ⟨S50000, .f32⟩
  | .hbm, ⟨73, _⟩ => ⟨S850000x1, .i32⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S50000, .i1⟩
  | .hbm, ⟨78, _⟩ => ⟨S50000, .f32⟩
  | .hbm, ⟨79, _⟩ => ⟨S_, .f32⟩
  | .hbm, ⟨80, _⟩ => ⟨S_, .f32⟩
  | .hbm, ⟨81, _⟩ => ⟨S50000, .f32⟩
  | .hbm, ⟨82, _⟩ => ⟨S50000, .f32⟩
  | .hbm, ⟨83, _⟩ => ⟨S_, .i32⟩
  | .hbm, ⟨84, _⟩ => ⟨S850000, .i32⟩
  | .hbm, ⟨85, _⟩ => ⟨S850000, .i1⟩
  | .hbm, ⟨86, _⟩ => ⟨S_, .i32⟩
  | .hbm, ⟨87, _⟩ => ⟨S850000, .i32⟩
  | .hbm, ⟨88, _⟩ => ⟨S850000, .i32⟩
  | .hbm, ⟨89, _⟩ => ⟨S850000, .i32⟩
  | .hbm, ⟨90, _⟩ => ⟨S850000x1, .i32⟩
  | .hbm, ⟨91, _⟩ => ⟨S850000, .f32⟩
  | .hbm, ⟨92, _⟩ => ⟨S_, .i32⟩
  | .hbm, ⟨93, _⟩ => ⟨S850000, .i32⟩
  | .hbm, ⟨94, _⟩ => ⟨S850000, .i1⟩
  | .hbm, ⟨95, _⟩ => ⟨S_, .i32⟩
  | .hbm, ⟨96, _⟩ => ⟨S850000, .i32⟩
  | .hbm, ⟨97, _⟩ => ⟨S850000, .i32⟩
  | .hbm, ⟨98, _⟩ => ⟨S850000, .i32⟩
  | .hbm, ⟨99, _⟩ => ⟨S850000x1, .i32⟩
  | .hbm, ⟨100, _⟩ => ⟨S850000, .f32⟩
  | .hbm, ⟨101, _⟩ => ⟨S850000, .f32⟩
  | .hbm, ⟨102, _⟩ => ⟨S_, .i32⟩
  | .hbm, ⟨103, _⟩ => ⟨S850000, .i32⟩
  | .hbm, ⟨104, _⟩ => ⟨S850000, .i1⟩
  | .hbm, ⟨105, _⟩ => ⟨S_, .i32⟩
  | .hbm, ⟨106, _⟩ => ⟨S850000, .i32⟩
  | .hbm, ⟨107, _⟩ => ⟨S850000, .i32⟩
  | .hbm, ⟨108, _⟩ => ⟨S850000, .i32⟩
  | .hbm, ⟨109, _⟩ => ⟨S850000x1, .i32⟩
  | .hbm, ⟨110, _⟩ => ⟨S850000x256, .f32⟩
  | .hbm, ⟨111, _⟩ => ⟨S850000x1, .f32⟩
  | .hbm, ⟨112, _⟩ => ⟨S850000x256, .f32⟩
  | .hbm, ⟨113, _⟩ => ⟨S850000x256, .f32⟩
  | .hbm, ⟨114, _⟩ => ⟨S_, .f32⟩
  | .hbm, ⟨115, _⟩ => ⟨S50000x256, .f32⟩
  | .hbm, ⟨116, _⟩ => ⟨S850000x1, .i32⟩
  | .hbm, ⟨117, _⟩ => ⟨S50000x256, .f32⟩
  | .hbm, ⟨118, _⟩ => ⟨S1x256, .f32⟩
  | .hbm, ⟨119, _⟩ => ⟨S50000x256, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S1x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S256x256, .f32⟩
  | .local _ .vmem, ⟨13, _⟩ => ⟨S5000x256, .f32⟩
  | .local _ .vmem, ⟨14, _⟩ => ⟨S5000x256, .f32⟩
  | .local _ .vmem, ⟨15, _⟩ => ⟨S5000x256, .f32⟩
  | .local _ .vmem, ⟨16, _⟩ => ⟨S5000x256, .f32⟩
  | .local _ .vmem, ⟨17, _⟩ => ⟨S1x256, .f32⟩
  | .local _ .vmem, ⟨18, _⟩ => ⟨S5000x256, .f32⟩
  | .local _ .vmem, ⟨19, _⟩ => ⟨S5000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_call1_v0 : Ref sig .tc := ⟨.hbm, 80, rfl⟩
abbrev main_call1_v1 : Ref sig .tc := ⟨.hbm, 81, rfl⟩
abbrev main_v57 : Ref sig .tc := ⟨.hbm, 82, rfl⟩
abbrev main_c_13 : Ref sig .tc := ⟨.hbm, 83, rfl⟩
abbrev main_v58 : Ref sig .tc := ⟨.hbm, 84, rfl⟩
abbrev main_v59 : Ref sig .tc := ⟨.hbm, 85, rfl⟩
abbrev main_c_14 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_15 : Ref sig .tc := ⟨.hbm, 92, rfl⟩
abbrev main_v65 : Ref sig .tc := ⟨.hbm, 93, rfl⟩
abbrev main_v66 : Ref sig .tc := ⟨.hbm, 94, rfl⟩
abbrev main_c_16 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_17 : Ref sig .tc := ⟨.hbm, 102, rfl⟩
abbrev main_v73 : Ref sig .tc := ⟨.hbm, 103, rfl⟩
abbrev main_v74 : Ref sig .tc := ⟨.hbm, 104, rfl⟩
abbrev main_c_18 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_19 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x256_S256x256_0_0 : ∀ a, (![0, 0] : Fin 2 → Nat) a + S256x256.size a ≤ S256x256.size a
  h_S256x256 : 0 < S256x256.numel
  dot_S5000x128_S128x256_S5000x256_1_0_0_1_n_n_wf : DotDims.WF S5000x128 S128x256 S5000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x256_S5000x256_1_0_0_1_n_n_wf : DotDims.WF S5000x256 S256x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x256.size a ≤ S50000x256.size a
  hwx3_2 : ∀ i : grid3.Coords, EltTy.bits .f32 = 32 ∨ (Rect.block (s := S50000x256) S5000x256.size (cc3_transform_2 i) (hinb3_2 i)).WholeWords (EltTy.packing .f32)

variable [Facts₀]

def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v85) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v86) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v87) S5000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S50000x256 : Shape := ⟨2, ![50000, 256]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x256, .f32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x256, .f32⟩
  | .hbm, ⟨70, _⟩ => ⟨S50000, .i32⟩
  | .hbm, ⟨71, _⟩ => ⟨S850000, .i32⟩
  | .hbm, ⟨72, _⟩ => ⟨S850000, .i32⟩
  | .hbm, ⟨73, _⟩ => ⟨S_, .f32⟩
  | .hbm, ⟨74, _⟩ => ⟨S850000, .f32⟩
  | .hbm, ⟨75, _⟩ => ⟨S_, .f32⟩
  | .hbm, ⟨76, _⟩ => ⟨S50000, .f32⟩
  | .hbm, ⟨77, _⟩ => ⟨S850000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .i1⟩
  | .hbm, ⟨82, _⟩ => ⟨S50000, .f32⟩
  | .hbm, ⟨83, _⟩ => ⟨S_, .f32⟩
  | .hbm, ⟨84, _⟩ => ⟨S_, .f32⟩
  | .hbm, ⟨85, _⟩ => ⟨S50000, .f32⟩
  | .hbm, ⟨86, _⟩ => ⟨S50000, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000, .f32⟩
  | .hbm, ⟨96, _⟩ => ⟨S_, .i32⟩
  | .hbm, ⟨97, _⟩ => ⟨S850000, .i32⟩
  | .hbm, ⟨98, _⟩ => ⟨S850000, .i1⟩
  | .hbm, ⟨99, _⟩ => ⟨S_, .i32⟩
  | .hbm, ⟨100, _⟩ => ⟨S850000, .i32⟩
  | .hbm, ⟨101, _⟩ => ⟨S850000, .i32⟩
  | .hbm, ⟨102, _⟩ => ⟨S850000, .i32⟩
  | .hbm, ⟨103, _⟩ => ⟨S850000x1, .i32⟩
  | .hbm, ⟨104, _⟩ => ⟨S850000, .f32⟩
  | .hbm, ⟨105, _⟩ => ⟨S850000, .f32⟩
  | .hbm, ⟨106, _⟩ => ⟨S_, .i32⟩
  | .hbm, ⟨107, _⟩ => ⟨S850000, .i32⟩
  | .hbm, ⟨108, _⟩ => ⟨S850000, .i1⟩
  | .hbm, ⟨109, _⟩ => ⟨S_, .i32⟩
  | .hbm, ⟨110, _⟩ => ⟨S850000, .i32⟩
  | .hbm, ⟨111, _⟩ => ⟨S850000, .i32⟩
  | .hbm, ⟨112, _⟩ => ⟨S850000, .i32⟩
  | .hbm, ⟨113, _⟩ => ⟨S850000x1, .i32⟩
  | .hbm, ⟨114, _⟩ => ⟨S850000x256, .f32⟩
  | .hbm, ⟨115, _⟩ => ⟨S850000x1, .f32⟩
  | .hbm, ⟨116, _⟩ => ⟨S850000x256, .f32⟩
  | .hbm, ⟨117, _⟩ => ⟨S850000x256, .f32⟩
  | .hbm, ⟨118, _⟩ => ⟨S_, .f32⟩
  | .hbm, ⟨119, _⟩ => ⟨S50000x256, .f32⟩
  | .hbm, ⟨120, _⟩ => ⟨S850000x1, .i32⟩
  | .hbm, ⟨121, _⟩ => ⟨S50000x256, .f32⟩
  | .hbm, ⟨122, _⟩ => ⟨S1x256, .f32⟩
  | .hbm, ⟨123, _⟩ => ⟨S50000x256, .f32⟩
  | .hbm, ⟨124, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x128_S128x256_S50000x256_1_0_0_1_n_n_wf : DotDims.WF S50000x128 S128x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.Spec.lean ====
/-
  The two-layer graph convolution that both programs compute, written once.

  Notation.  The graph has N = 50000 nodes and E = 800000 edges given as two rows of node numbers, the
  sources and the targets.  Every node also gets a loop to itself, so the edge list has E + N entries.
  The degree of a node v is the number of entries whose target is v; its weight is deg(v)^(-1/2) where the
  degree is positive and 0 otherwise.  An entry (s, t) carries the coefficient weight(s) · weight(t).

  One layer takes node features h (N rows of 256 numbers) to

      aggregate h  (v, j) = Σ over the entries (s, t) with t = v of  h(s, j) · weight(s) · weight(t),

  and the network is

      out = aggregate (relu (aggregate (x · W1) + b1) · W2) + b2 ,

  the bias added to every row.  A node number that is negative is first moved up by N (the usual
  wrap-around of a negative index) before a row is fetched; the scatter that forms the sums uses the
  targets as they are.  All of this is spelt with the host operations of the reference program, so that
  the reference's result is this term on the nose; the kernel's program reaches the same term through
  its four tiled stages (two matrix products, two bias stages), each shown equal to the corresponding
  whole-array operation here.
-/
import proofs.«138691_j45208825757774_1_alg».proof.ReferenceIdeal
import proofs.«138691_j45208825757774_1_alg».proof.Proof.Gen.ReferenceIdeal

noncomputable section

namespace Cert.Gcn

open Idealize.ShloMosaic Cert.ReferenceIdeal Cert.ReferenceIdeal.Facts₀ Cert.ReferenceIdeal.Facts

variable {F : FTy → Type} [FloatOps F]

/-- Row `r` (0: sources, 1: targets) of the edge list as a flat vector of E node numbers. -/
def sources (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

def targets (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The E given ends of the edges followed by the N loop ends 0, 1, …, N − 1. -/
def withLoops (v : (⟨S800000, .i32⟩ : BufTy).Contents (Elt F)) : (⟨S850000, .i32⟩ : BufTy).Contents (Elt F) :=
  concatenate S850000 0 [⟨S800000, v⟩, ⟨S50000, (iotaInDim S50000 32 0)⟩] concatenates_S800000_S50000_S850000_d0

/-- Node numbers made ready for fetching a row: a negative one is moved up by N; as a column of start indices. -/
def wrapped (v : (⟨S850000, .i32⟩ : BufTy).Contents (Elt F)) : (⟨S850000x1, .i32⟩ : BufTy).Contents (Elt F) :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- deg(v): a one added at its target for every entry of the edge list. -/
def degree (t : (⟨S850000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32))
    (broadcastInDim S850000x1 ![0] bcast_S850000_S850000x1_0 t)
    (broadcastInDim S850000 ![] bcast_S_S850000 (constant S_ .f32 0x3F800000#32))

/-- The mask of the nodes of positive degree. -/
def positiveDegree (t : (⟨S850000, .i32⟩ : BufTy).Contents (Elt F)) : (⟨S50000, .i1⟩ : BufTy).Contents (Elt F) :=
  cmpf (F := F) .ogt (degree t) (broadcastInDim S50000 ![] bcast_S_S50000 (constant S_ .f32 0x00000000#32))

/-- deg(v)^(-1/2), node by node. -/
def invSqrtDegree (t : (⟨S850000, .i32⟩ : BufTy).Contents (Elt F)) : (⟨S50000, .f32⟩ : BufTy).Contents (Elt F) :=
  Host.rsqrt (degree t)

/-- The scalar zero. -/
def zeroScalar : (⟨S_, .f32⟩ : BufTy).Contents (Elt F) := constant S_ .f32 0x00000000#32

/-- A vector of node weights chosen by a mask: `r` where the mask is set, the scalar `z` elsewhere. -/
def weightOf (mask : (⟨S50000, .i1⟩ : BufTy).Contents (Elt F)) (r : (⟨S50000, .f32⟩ : BufTy).Contents (Elt F))
    (z : (⟨S_, .f32⟩ : BufTy).Contents (Elt F)) : (⟨S50000, .f32⟩ : BufTy).Contents (Elt F) :=
  select mask r (broadcastInDim S50000 ![] bcast_S_S50000 (id z))

/-- weight(v) = deg(v)^(-1/2) where deg(v) > 0, and 0 elsewhere. -/
def weight (t : (⟨S850000, .i32⟩ : BufTy).Contents (Elt F)) : (⟨S50000, .f32⟩ : BufTy).Contents (Elt F) :=
  weightOf (positiveDegree t) (invSqrtDegree t) zeroScalar

/-- The coefficient w(s) · w(t) of every entry (s, t), for a vector w of node weights. -/
def coefficientOf (w : (⟨S50000, .f32⟩ : BufTy).Contents (Elt F)) (s t : (⟨S850000, .i32⟩ : BufTy).Contents (Elt F)) :
    (⟨S850000, .f32⟩ : BufTy).Contents (Elt F) :=
  mulf (Host.gather gather_S50000_S850000x1_S850000_n_0_n_n_0_1_1 w (wrapped s))
    (Host.gather gather_S50000_S850000x1_S850000_n_0_n_n_0_1_1 w (wrapped t))

/-- One aggregation over a given list of entries (s, t) with given node weights w: row s of `h` times the entry's
    coefficient, summed into row t. -/
def aggregateOf (h : (⟨S50000x256, .f32⟩ : BufTy).Contents (Elt F)) (w : (⟨S50000, .f32⟩ : BufTy).Contents (Elt F))
    (s t : (⟨S850000, .i32⟩ : BufTy).Contents (Elt F)) : (⟨S50000x256, .f32⟩ : BufTy).Contents (Elt F) :=
  Host.scatterAdd scatter_S50000x256_S850000x1_S850000x256_1_0_0_1
    (broadcastInDim S50000x256 ![] bcast_S_S50000x256 (constant S_ .f32 0x00000000#32))
    (broadcastInDim S850000x1 ![0] bcast_S850000_S850000x1_0 t)
    (mulf (Host.gather gather_S50000x256_S850000x1_S850000x256_1_0_n_n_0_1_1256 h (wrapped s))
      (broadcastInDim S850000x256 ![0, 1] bcast_S850000x1_S850000x256_0_1
        (broadcastInDim S850000x1 ![0] bcast_S850000_S850000x1_0 (coefficientOf w s t))))

/-- One aggregation over the graph's edges and loops, with the weights deg^(-1/2) of the entries' targets. -/
def aggregate (h : (⟨S50000x256, .f32⟩ : BufTy).Contents (Elt F))
    (s t : (⟨S800000, .i32⟩ : BufTy).Contents (Elt F)) : (⟨S50000x256, .f32⟩ : BufTy).Contents (Elt F) :=
  aggregateOf h (weight (withLoops t)) (withLoops s) (withLoops t)

/-- x · W1 (128 input features). -/
def project1 (x : (⟨S50000x128, .f32⟩ : BufTy).Contents (Elt F)) (w : (⟨S128x256, .f32⟩ : BufTy).Contents (Elt F)) :
    (⟨S50000x256, .f32⟩ : BufTy).Contents (Elt F) :=
  Host.dotGeneral dot_S50000x128_S128x256_S50000x256_1_0_0_1_n_n none x w

/-- h · W2 (256 input features). -/
def project2 (h : (⟨S50000x256, .f32⟩ : BufTy).Contents (Elt F)) (w : (⟨S256x256, .f32⟩ : BufTy).Contents (Elt F)) :
    (⟨S50000x256, .f32⟩ : BufTy).Contents (Elt F) :=
  Host.dotGeneral dot_S50000x256_S256x256_S50000x256_1_0_0_1_n_n none h w

/-- a + b, the bias b added to every row. -/
def addBias (a : (⟨S50000x256, .f32⟩ : BufTy).Contents (Elt F)) (b : (⟨S256, .f32⟩ : BufTy).Contents (Elt F)) :
    (⟨S50000x256, .f32⟩ : BufTy).Contents (Elt F) :=
  addf a (broadcastInDim S50000x256 ![0, 1] bcast_S1x256_S50000x256_0_1 (broadcastInDim S1x256 ![1] bcast_S256_S1x256_1 b))

/-- The positive part, entry by entry. -/
def positivePart (a : (⟨S50000x256, .f32⟩ : BufTy).Contents (Elt F)) : (⟨S50000x256, .f32⟩ : BufTy).Contents (Elt F) :=
  maximumf a (broadcastInDim S50000x256 ![] bcast_S_S50000x256 (constant S_ .f32 0x00000000#32))

/-- The hidden features: relu (aggregate (x · W1) + b1). -/
def hidden (x : (⟨S50000x128, .f32⟩ : BufTy).Contents (Elt F)) (e : (⟨S2x800000, .i32⟩ : BufTy).Contents (Elt F))
    (w1 : (⟨S128x256, .f32⟩ : BufTy).Contents (Elt F)) (b1 : (⟨S256, .f32⟩ : BufTy).Contents (Elt F)) :
    (⟨S50000x256, .f32⟩ : BufTy).Contents (Elt F) :=
  positivePart (addBias (aggregate (project1 x w1) (sources e) (targets e)) b1)

/-- The network: aggregate (hidden · W2) + b2. -/
def network (x : (⟨S50000x128, .f32⟩ : BufTy).Contents (Elt F)) (e : (⟨S2x800000, .i32⟩ : BufTy).Contents (Elt F))
    (w1 : (⟨S128x256, .f32⟩ : BufTy).Contents (Elt F)) (b1 : (⟨S256, .f32⟩ : BufTy).Contents (Elt F))
    (w2 : (⟨S256x256, .f32⟩ : BufTy).Contents (Elt F)) (b2 : (⟨S256, .f32⟩ : BufTy).Contents (Elt F)) :
    (⟨S50000x256, .f32⟩ : BufTy).Contents (Elt F) :=
  addBias (aggregate (project2 (hidden x e w1 b1) w2) (sources e) (targets e)) b2

end Cert.Gcn

end
-- ==== Proof.Stretch.lean ====
/-
  The host operations of the kernel's program between its four tiled stages, read as the pieces of Spec.lean.

  Before stage 1 the program cuts the edge list into its row of sources and its row of targets.  Between stage 1
  and stage 2, and again between stage 3 and stage 4, it forms one aggregation of the features the stage before
  left, in three stretches: first the loops are appended to both rows, the degrees counted and their positivity mask
  and inverse square roots taken; then the weights are chosen by the mask; last the coefficients are formed, the
  rows fetched, scaled and summed into their targets, and the bias is laid out as one row.  Each stretch is read
  from the contents `U` it starts from, whatever they are: the operations are the reference's own, in the same
  order, so what a stretch leaves IS the matching piece of `Cert.Gcn.aggregate` of the arrays it reads.
-/
import proofs.«138691_j45208825757774_1_alg».proof.Proof.Gen.KernelIdeal.Launch
import proofs.«138691_j45208825757774_1_alg».proof.Proof.Spec
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F]
variable (U : Valuation τ sig (Elt F))

/-- A buffer that no operation of a stretch writes keeps its contents: every operation's written buffer is another one. -/
local macro "kept" : tactic => `(tactic| (
  refine StableHlo.after_of_forall_not_mem _ _ (List.forall_iff_forall_mem.mp ?_)
  simp only [hostOps0, hostOps1, hostOps1_1, hostOps1_2, hostOps3, hostOps3_1, hostOps3_2, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## Before stage 1 -/

/-- The first stretch leaves the row of sources in main_v1 … -/
theorem sources_eq :
    StableHlo.after hostOps0 U (Proc.devRef .tc main_v1) = Cert.Gcn.sources (F := F) (U (Proc.devRef .tc main_arg1)) := by
  after_results
  rfl

/-- … and the row of targets in main_v3. -/
theorem targets_eq :
    StableHlo.after hostOps0 U (Proc.devRef .tc main_v3) = Cert.Gcn.targets (F := F) (U (Proc.devRef .tc main_arg1)) := by
  after_results
  rfl

/-- The arguments other than the edge list pass the first stretch untouched. -/
theorem before_arg0 : StableHlo.after hostOps0 U (Proc.devRef .tc main_arg0) = U (Proc.devRef .tc main_arg0) := by kept
theorem before_arg2 : StableHlo.after hostOps0 U (Proc.devRef .tc main_arg2) = U (Proc.devRef .tc main_arg2) := by kept
theorem before_arg3 : StableHlo.after hostOps0 U (Proc.devRef .tc main_arg3) = U (Proc.devRef .tc main_arg3) := by kept
theorem before_arg4 : StableHlo.after hostOps0 U (Proc.devRef .tc main_arg4) = U (Proc.devRef .tc main_arg4) := by kept
theorem before_arg5 : StableHlo.after hostOps0 U (Proc.devRef .tc main_arg5) = U (Proc.devRef .tc main_arg5) := by kept

/-! ## Between stages 1 and 2 -/

theorem loops1_s : StableHlo.after hostOps1 U (Proc.devRef .tc main_v6) = Cert.Gcn.withLoops (F := F) (U (Proc.devRef .tc main_v1)) := by
  after_results
  rfl
theorem loops1_t : StableHlo.after hostOps1 U (Proc.devRef .tc main_v7) = Cert.Gcn.withLoops (F := F) (U (Proc.devRef .tc main_v3)) := by
  after_results
  rfl
theorem mask1 : StableHlo.after hostOps1 U (Proc.devRef .tc main_v13)
    = Cert.Gcn.positiveDegree (F := F) (Cert.Gcn.withLoops (F := F) (U (Proc.devRef .tc main_v3))) := by
  after_results
  rfl
theorem rsqrt1 : StableHlo.after hostOps1 U (Proc.devRef .tc main_v14)
    = Cert.Gcn.invSqrtDegree (F := F) (Cert.Gcn.withLoops (F := F) (U (Proc.devRef .tc main_v3))) := by
  after_results
  rfl
theorem zero1 : StableHlo.after hostOps1 U (Proc.devRef .tc main_cst_2) = Cert.Gcn.zeroScalar (F := F) := by
  after_results
  rfl
theorem keep1_h : StableHlo.after hostOps1 U (Proc.devRef .tc main_v4) = U (Proc.devRef .tc main_v4) := by
  after_results
theorem keep1_b : StableHlo.after hostOps1 U (Proc.devRef .tc main_arg3) = U (Proc.devRef .tc main_arg3) := by
  after_results

theorem weight1 : StableHlo.after hostOps1_1 U (Proc.devRef .tc main_v15)
    = Cert.Gcn.weightOf (F := F) (U (Proc.devRef .tc main_v13)) (U (Proc.devRef .tc main_v14)) (U (Proc.devRef .tc main_cst_2)) := by
  after_results
  rfl
theorem keep1'_h : StableHlo.after hostOps1_1 U (Proc.devRef .tc main_v4) = U (Proc.devRef .tc main_v4) := by
  after_results
theorem keep1'_s : StableHlo.after hostOps1_1 U (Proc.devRef .tc main_v6) = U (Proc.devRef .tc main_v6) := by
  after_results
theorem keep1'_t : StableHlo.after hostOps1_1 U (Proc.devRef .tc main_v7) = U (Proc.devRef .tc main_v7) := by
  after_results
theorem keep1'_b : StableHlo.after hostOps1_1 U (Proc.devRef .tc main_arg3) = U (Proc.devRef .tc main_arg3) := by
  after_results

set_option maxHeartbeats 2000000 in
theorem sum1 : StableHlo.after hostOps1_2 U (Proc.devRef .tc main_v43)
    = Cert.Gcn.aggregateOf (F := F) (U (Proc.devRef .tc main_v4)) (U (Proc.devRef .tc main_v15))
        (U (Proc.devRef .tc main_v6)) (U (Proc.devRef .tc main_v7)) := by
  after_results_simp
  rfl
theorem row1 : StableHlo.after hostOps1_2 U (Proc.devRef .tc main_v44)
    = shapeCast S1x256 (U (Proc.devRef .tc main_arg3)) shapeCasts_S256_S1x256 := by
  after_results
  rfl

/-- The stretch between stages 1 and 2 leaves in main_v43 the aggregation of the features in main_v4. -/
theorem aggregate1_eq :
    StableHlo.after hostOps1_2 (StableHlo.after hostOps1_1 (StableHlo.after hostOps1 U)) (Proc.devRef .tc main_v43)
      = Cert.Gcn.aggregate (F := F) (U (Proc.devRef .tc main_v4)) (U (Proc.devRef .tc main_v1)) (U (Proc.devRef .tc main_v3)) := by
  rw [sum1, weight1, keep1'_h, keep1'_s, keep1'_t, mask1, rsqrt1, zero1, keep1_h, loops1_s, loops1_t]
  rfl

/-- The same stretch lays the first bias out as one row. -/
theorem bias1_eq :
    StableHlo.after hostOps1_2 (StableHlo.after hostOps1_1 (StableHlo.after hostOps1 U)) (Proc.devRef .tc main_v44)
      = shapeCast S1x256 (U (Proc.devRef .tc main_arg3)) shapeCasts_S256_S1x256 := by
  rw [row1, keep1'_b, keep1_b]

/-- What the later stages read passes these three stretches untouched: the second weight matrix and bias, the two rows of the edge list. -/
theorem through1_arg4 :
    StableHlo.after hostOps1_2 (StableHlo.after hostOps1_1 (StableHlo.after hostOps1 U)) (Proc.devRef .tc main_arg4) = U (Proc.devRef .tc main_arg4) :=
  calc _ = StableHlo.after hostOps1_1 (StableHlo.after hostOps1 U) (Proc.devRef .tc main_arg4) := by kept
       _ = StableHlo.after hostOps1 U (Proc.devRef .tc main_arg4) := by kept
       _ = U (Proc.devRef .tc main_arg4) := by kept
theorem through1_arg5 :
    StableHlo.after hostOps1_2 (StableHlo.after hostOps1_1 (StableHlo.after hostOps1 U)) (Proc.devRef .tc main_arg5) = U (Proc.devRef .tc main_arg5) :=
  calc _ = StableHlo.after hostOps1_1 (StableHlo.after hostOps1 U) (Proc.devRef .tc main_arg5) := by kept
       _ = StableHlo.after hostOps1 U (Proc.devRef .tc main_arg5) := by kept
       _ = U (Proc.devRef .tc main_arg5) := by kept
theorem through1_v1 :
    StableHlo.after hostOps1_2 (StableHlo.after hostOps1_1 (StableHlo.after hostOps1 U)) (Proc.devRef .tc main_v1) = U (Proc.devRef .tc main_v1) :=
  calc _ = StableHlo.after hostOps1_1 (StableHlo.after hostOps1 U) (Proc.devRef .tc main_v1) := by kept
       _ = StableHlo.after hostOps1 U (Proc.devRef .tc main_v1) := by kept
       _ = U (Proc.devRef .tc main_v1) := by kept
theorem through1_v3 :
    StableHlo.after hostOps1_2 (StableHlo.after hostOps1_1 (StableHlo.after hostOps1 U)) (Proc.devRef .tc main_v3) = U (Proc.devRef .tc main_v3) :=
  calc _ = StableHlo.after hostOps1_1 (StableHlo.after hostOps1 U) (Proc.devRef .tc main_v3) := by kept
       _ = StableHlo.after hostOps1 U (Proc.devRef .tc main_v3) := by kept
       _ = U (Proc.devRef .tc main_v3) := by kept

/-! ## Between stages 3 and 4 -/

theorem loops2_s : StableHlo.after hostOps3 U (Proc.devRef .tc main_v48) = Cert.Gcn.withLoops (F := F) (U (Proc.devRef .tc main_v1)) := by
  after_results
  rfl
theorem loops2_t : StableHlo.after hostOps3 U (Proc.devRef .tc main_v49) = Cert.Gcn.withLoops (F := F) (U (Proc.devRef .tc main_v3)) := by
  after_results
  rfl
theorem mask2 : StableHlo.after hostOps3 U (Proc.devRef .tc main_v55)
    = Cert.Gcn.positiveDegree (F := F) (Cert.Gcn.withLoops (F := F) (U (Proc.devRef .tc main_v3))) := by
  after_results
  rfl
theorem rsqrt2 : StableHlo.after hostOps3 U (Proc.devRef .tc main_v56)
    = Cert.Gcn.invSqrtDegree (F := F) (Cert.Gcn.withLoops (F := F) (U (Proc.devRef .tc main_v3))) := by
  after_results
  rfl
theorem zero2 : StableHlo.after hostOps3 U (Proc.devRef .tc main_cst_12) = Cert.Gcn.zeroScalar (F := F) := by
  after_results
  rfl
theorem keep2_h : StableHlo.after hostOps3 U (Proc.devRef .tc main_v46) = U (Proc.devRef .tc main_v46) := by
  after_results
theorem keep2_b : StableHlo.after hostOps3 U (Proc.devRef .tc main_arg5) = U (Proc.devRef .tc main_arg5) := by
  after_results

theorem weight2 : StableHlo.after hostOps3_1 U (Proc.devRef .tc main_v57)
    = Cert.Gcn.weightOf (F := F) (U (Proc.devRef .tc main_v55)) (U (Proc.devRef .tc main_v56)) (U (Proc.devRef .tc main_cst_12)) := by
  after_results
  rfl
theorem keep2'_h : StableHlo.after hostOps3_1 U (Proc.devRef .tc main_v46) = U (Proc.devRef .tc main_v46) := by
  after_results
theorem keep2'_s : StableHlo.after hostOps3_1 U (Proc.devRef .tc main_v48) = U (Proc.devRef .tc main_v48) := by
  after_results
theorem keep2'_t : StableHlo.after hostOps3_1 U (Proc.devRef .tc main_v49) = U (Proc.devRef .tc main_v49) := by
  after_results
theorem keep2'_b : StableHlo.after hostOps3_1 U (Proc.devRef .tc main_arg5) = U (Proc.devRef .tc main_arg5) := by
  after_results

set_option maxHeartbeats 2000000 in
theorem sum2 : StableHlo.after hostOps3_2 U (Proc.devRef .tc main_v85)
    = Cert.Gcn.aggregateOf (F := F) (U (Proc.devRef .tc main_v46)) (U (Proc.devRef .tc main_v57))
        (U (Proc.devRef .tc main_v48)) (U (Proc.devRef .tc main_v49)) := by
  after_results_simp
  rfl
theorem row2 : StableHlo.after hostOps3_2 U (Proc.devRef .tc main_v86)
    = shapeCast S1x256 (U (Proc.devRef .tc main_arg5)) shapeCasts_S256_S1x256 := by
  after_results
  rfl

/-- The stretch between stages 3 and 4 leaves in main_v85 the aggregation of the features in main_v46. -/
theorem aggregate2_eq :
    StableHlo.after hostOps3_2 (StableHlo.after hostOps3_1 (StableHlo.after hostOps3 U)) (Proc.devRef .tc main_v85)
      = Cert.Gcn.aggregate (F := F) (U (Proc.devRef .tc main_v46)) (U (Proc.devRef .tc main_v1)) (U (Proc.devRef .tc main_v3)) := by
  rw [sum2, weight2, keep2'_h, keep2'_s, keep2'_t, mask2, rsqrt2, zero2, keep2_h, loops2_s, loops2_t]
  rfl

/-- The same stretch lays the second bias out as one row. -/
theorem bias2_eq :
    StableHlo.after hostOps3_2 (StableHlo.after hostOps3_1 (StableHlo.after hostOps3 U)) (Proc.devRef .tc main_v86)
      = shapeCast S1x256 (U (Proc.devRef .tc main_arg5)) shapeCasts_S256_S1x256 := by
  rw [row2, keep2'_b, keep2_b]

end Cert.KernelIdeal.Host

end
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.Region0.lean ====
/-
  Stage 1 of the kernel's program: the product x · W1, computed in ten row blocks of 5000 rows.

  At grid point t the body reads rows 5000 t … 5000 t + 4999 of x and the whole of W1, multiplies them
  (the operands narrowed on the way in, which changes nothing at the ideal values; the accumulator starts at zero)
  and writes the 5000 × 256 block back to the same rows of the result.  Entry (p, q) of that block is
  Σ_k x(5000 t + p, k) · W1(k, q), which is entry (5000 t + p, q) of the whole product; the ten blocks cover
  every row, so the array ends holding the whole product.
-/
import proofs.«138691_j45208825757774_1_alg».proof.Proof.Gen.KernelIdeal.Frame
import proofs.«138691_j45208825757774_1_alg».proof.Proof.Spec
import proofs.«138691_j45208825757774_1_alg».proof.Proof.LibRowOps
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat Cfg Window)

theorem hz : (![0, 0] : Fin 2 → Nat) = fun _ => 0 := funext fun a => by fin_cases a <;> rfl

/-- Where the three windows sit at grid point t: the x block and the result block at row block t, W1 whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's product at (p, q): row p of the x block against column q of W1. -/
theorem pay_apply (x0 : Vec Ideal S5000x128 .f32) (x1 : Vec Ideal S128x256 .f32) (p : Fin 5000) (q : Fin 256) :
    k0_pay1 (F := Ideal) x0 x1 (ix2 p q) = ∑ k : Fin 128, x0 (ix2 p k) * x1 (ix2 k q) := by
  unfold k0_pay1
  exact RowOps.matmul_plain_apply (M := 5000) (K := 128) (N := 256) _ rfl none
    (truncf .bf16 x0 bitsLt_bf16_f32) (truncf .bf16 x1 bitsLt_bf16_f32) p q

/-- One entry of one block is the matching entry of the whole product, given that the x block holds rows
    5000 t … of X and the W block is W. -/
theorem point (X : (⟨Cert.ReferenceIdeal.S50000x128, .f32⟩ : BufTy).Contents (Elt Ideal))
    (W : (⟨Cert.ReferenceIdeal.S128x256, .f32⟩ : BufTy).Contents (Elt Ideal))
    (x0 : Vec Ideal S5000x128 .f32) (x1 : Vec Ideal S128x256 .f32) (t : ℕ)
    (h0 : ∀ (p : Fin 5000) (k : Fin 128) (p' : Fin 50000), p'.val = 5000 * t + p.val → x0 (ix2 p k) = X (ix2 p' k))
    (h1 : ∀ (k : Fin 128) (q : Fin 256), x1 (ix2 k q) = W (ix2 k q))
    (j : S5000x256.Idx) (i : Cert.ReferenceIdeal.S50000x256.Idx)
    (hi0 : (i 0).val = 5000 * t + (j 0).val) (hi1 : (i 1).val = (j 1).val) :
    k0_pay1 (F := Ideal) x0 x1 j = Cert.Gcn.project1 (F := Ideal) X W i := by
  obtain ⟨p, q, rfl⟩ : ∃ (p : Fin 5000) (q : Fin 256), j = ix2 p q := ⟨j 0, j 1, eq_ix2 j⟩
  obtain ⟨p', q', rfl⟩ : ∃ (p' : Fin 50000) (q' : Fin 256), i = ix2 p' q' := ⟨i 0, i 1, eq_ix2 i⟩
  have hq : q' = q := Fin.ext hi1
  subst hq
  rw [pay_apply]
  unfold Cert.Gcn.project1
  rw [RowOps.dotGeneral_plain_apply (M := 50000) (K := 128) (N := 256)
    Cert.ReferenceIdeal.dot_S50000x128_S128x256_S50000x256_1_0_0_1_n_n rfl none X W p' q']
  exact Finset.sum_congr rfl fun k _ => by rw [h0 p k p' hi0, h1 k q']

variable (V : (c : Dev nD) → (b : Ref sig .tc) → Buf (Elt Ideal) ((c : Thread nD τ).loc b))

/-- What point t writes back is block t of the whole product. -/
theorem flushed_eq (c : Dev nD) (t : Fin cfg0.N) :
    (dat0 (F := Ideal) V c).flushed 2 t
      = ((cfg0.win 2).blk t).view.read (Elt Ideal) (Cert.Gcn.project1 (F := Ideal) (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S5000x128) hz, View.ld_unit_zero (S := S128x256) hz]
  obtain ⟨e0, e1, e2, e3, e4, e5⟩ := idx_facts t
  funext j
  refine point (V c main_arg0) (V c main_arg2) (iblk0 V c 0 t) (iblk0 V c 1 t) t.val ?_ ?_ j
    (((cfg0.win 2).blk t).view.emb j) ?_ ?_
  · intro p k p' hp
    show V c main_arg0 (((cfg0.win 0).blk t).view.emb (ix2 p k)) = V c main_arg0 (ix2 p' k)
    refine congrArg (V c main_arg0) (funext fun a => Fin.ext ?_)
    match a with
    | ⟨0, _⟩ => show win0_0.index t (0 : Fin 2) * 5000 + 1 * p.val = p'.val; rw [e0, hp]; omega
    | ⟨1, _⟩ => show win0_0.index t (1 : Fin 2) * 128 + 1 * k.val = k.val; rw [e1]; omega
  · intro k q
    show V c main_arg2 (((cfg0.win 1).blk t).view.emb (ix2 k q)) = V c main_arg2 (ix2 k q)
    refine congrArg (V c main_arg2) (funext fun a => Fin.ext ?_)
    match a with
    | ⟨0, _⟩ => show win0_1.index t (0 : Fin 2) * 128 + 1 * k.val = k.val; rw [e2]; omega
    | ⟨1, _⟩ => show win0_1.index t (1 : Fin 2) * 256 + 1 * q.val = q.val; rw [e3]; omega
  · show win0_2.index t (0 : Fin 2) * 5000 + 1 * (j 0).val = 5000 * t.val + (j 0).val; rw [e4]; omega
  · show win0_2.index t (1 : Fin 2) * 256 + 1 * (j 1).val = (j 1).val; rw [e5]; omega

/-- An index of the result is in point t's block iff its row lies in row block t. -/
theorem mem_blk (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v4).slice (win0_2.rect t)).set ↔ _
  rw [View.set_slice_whole, Rect.mem_set_unit]
  exact Iff.rfl

/-- Every row lies in one of the ten row blocks. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  let t : Fin cfg0.N := ⟨(i 0).val / 5000, by rw [show cfg0.N = 10 from N_0]; omega⟩
  obtain ⟨-, -, -, -, e4, e5⟩ := idx_facts t
  have e4' : win0_2.index t (0 : Fin 2) = (i 0).val / 5000 := e4
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e4']; omega
  | ⟨1, _⟩ => show win0_2.index t (1 : Fin 2) * 256 ≤ (i 1).val ∧ (i 1).val < win0_2.index t (1 : Fin 2) * 256 + 256; rw [e5]; omega

/-- The result array after the stage is the whole product of the two arrays the stage found. -/
theorem value (c : Dev nD) :
    (dat0 (F := Ideal) V c).arrAt 2 cfg0.N = Cert.Gcn.project1 (F := Ideal) (V c main_arg0) (V c main_arg2) :=
  (dat0 (F := Ideal) V c).arrAt_eq_of_cover 2 _ (fun t _ => flushed_eq V c t) cover

end Cert.KernelIdeal.Region0

end
-- ==== Proof.Region1.lean ====
/-
  Stage 2 of the kernel's program: bias and positive part, in ten row blocks of 5000 rows.

  At grid point t the body reads rows 5000 t … 5000 t + 4999 of the aggregated features and the bias laid out as
  one row, adds the bias row to every row of the block, takes the larger of each entry and zero, and writes the
  block back to the same rows of the result.  Entry (p, q) of the block is max (a(5000 t + p, q) + b(q), 0), which
  is entry (5000 t + p, q) of relu (a + b); the ten blocks cover every row.
-/
import proofs.«138691_j45208825757774_1_alg».proof.Proof.Gen.KernelIdeal.Frame
import proofs.«138691_j45208825757774_1_alg».proof.Proof.Spec
import proofs.«138691_j45208825757774_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat Cfg Window)

theorem hz : (![0, 0] : Fin 2 → Nat) = fun _ => 0 := funext fun a => by fin_cases a <;> rfl

/-- Where the three windows sit at grid point t: the input block and the result block at row block t, the bias row whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's result at (p, q): the input's entry plus the bias row's entry in column q, or zero if that is larger. -/
theorem pay_apply (x0 : Vec Ideal S5000x256 .f32) (x1 : Vec Ideal S1x256 .f32) (p : Fin 5000) (q : Fin 256) :
    k1_pay1 (F := Ideal) x0 x1 (ix2 p q) = max (x0 (ix2 p q) + x1 (ix2 (0 : Fin 1) q)) (Ideal.ofBits .f32 0x00000000#32) := by
  unfold k1_pay1
  rw [maximumf_apply, addf_apply]
  simp only [shapeCast_self]
  rw [broadcastTo_1b_ab_apply]
  rfl

/-- The whole-array operation at (p', q). -/
theorem spec_apply (A : (⟨Cert.ReferenceIdeal.S50000x256, .f32⟩ : BufTy).Contents (Elt Ideal))
    (b : (⟨Cert.ReferenceIdeal.S256, .f32⟩ : BufTy).Contents (Elt Ideal)) (p' : Fin 50000) (q : Fin 256) :
    Cert.Gcn.positivePart (F := Ideal) (Cert.Gcn.addBias (F := Ideal) A b) (ix2 p' q) = max (A (ix2 p' q) + b (ix1 q)) (Ideal.ofBits .f32 0x00000000#32) := by
  unfold Cert.Gcn.positivePart Cert.Gcn.addBias
  rw [maximumf_apply, addf_apply, RowOps.bias_bcast_apply b ![1] rfl _ ![0, 1] rfl rfl _ p' q]
  rfl

/-- One entry of one block is the matching entry of the whole-array operation, given that the input block holds rows
    5000 t … of A and the bias block is the row b. -/
theorem point (A : (⟨Cert.ReferenceIdeal.S50000x256, .f32⟩ : BufTy).Contents (Elt Ideal))
    (b : (⟨Cert.ReferenceIdeal.S256, .f32⟩ : BufTy).Contents (Elt Ideal))
    (x0 : Vec Ideal S5000x256 .f32) (x1 : Vec Ideal S1x256 .f32) (t : ℕ)
    (h0 : ∀ (p : Fin 5000) (q : Fin 256) (p' : Fin 50000), p'.val = 5000 * t + p.val → x0 (ix2 p q) = A (ix2 p' q))
    (h1 : ∀ (q : Fin 256), x1 (ix2 (0 : Fin 1) q) = b (ix1 q))
    (j : S5000x256.Idx) (i : Cert.ReferenceIdeal.S50000x256.Idx)
    (hi0 : (i 0).val = 5000 * t + (j 0).val) (hi1 : (i 1).val = (j 1).val) :
    k1_pay1 (F := Ideal) x0 x1 j = Cert.Gcn.positivePart (F := Ideal) (Cert.Gcn.addBias (F := Ideal) A b) i := by
  obtain ⟨p, q, rfl⟩ : ∃ (p : Fin 5000) (q : Fin 256), j = ix2 p q := ⟨j 0, j 1, eq_ix2 j⟩
  obtain ⟨p', q', rfl⟩ : ∃ (p' : Fin 50000) (q' : Fin 256), i = ix2 p' q' := ⟨i 0, i 1, eq_ix2 i⟩
  have hq : q' = q := Fin.ext hi1
  subst hq
  rw [pay_apply, spec_apply, h0 p q' p' hi0, h1 q']

variable (V : (c : Dev nD) → (b : Ref sig .tc) → Buf (Elt Ideal) ((c : Thread nD τ).loc b))

/-- What point t writes back is block t of the whole-array operation. -/
theorem flushed_eq (c : Dev nD) (b : (⟨S256, .f32⟩ : BufTy).Contents (Elt Ideal))
    (hb : V c main_v44 = shapeCast S1x256 b shapeCasts_S256_S1x256) (t : Fin cfg1.N) :
    (dat1 (F := Ideal) V c).flushed 2 t
      = ((cfg1.win 2).blk t).view.read (Elt Ideal) (Cert.Gcn.positivePart (F := Ideal) (Cert.Gcn.addBias (F := Ideal) (V c main_v43) b)) := by
  show (cfg1.win 2).cut (grid1.coords t) ((dat1 (F := Ideal) V c).after 2 t) = _
  rw [after1_2]
  unfold out1_2
  rw [View.canon_unit_zero hz]
  simp only [View.ld_unit_zero (S := S5000x256) hz, View.ld_unit_zero (S := S1x256) hz]
  obtain ⟨e0, e1, e2, e3, e4, e5⟩ := idx_facts t
  funext j
  refine point (V c main_v43) b (iblk1 V c 0 t) (iblk1 V c 1 t) t.val ?_ ?_ j
    (((cfg1.win 2).blk t).view.emb j) ?_ ?_
  · intro p q p' hp
    show V c main_v43 (((cfg1.win 0).blk t).view.emb (ix2 p q)) = V c main_v43 (ix2 p' q)
    refine congrArg (V c main_v43) (funext fun a => Fin.ext ?_)
    match a with
    | ⟨0, _⟩ => show win1_0.index t (0 : Fin 2) * 5000 + 1 * p.val = p'.val; rw [e0, hp]; omega
    | ⟨1, _⟩ => show win1_0.index t (1 : Fin 2) * 256 + 1 * q.val = q.val; rw [e1]; omega
  · intro q
    have hemb : ((cfg1.win 1).blk t).view.emb (ix2 (0 : Fin 1) q) = ix2 (0 : Fin 1) q :=
      funext fun a => Fin.ext (by
        match a with
        | ⟨0, _⟩ => show win1_1.index t (0 : Fin 2) * 1 + 1 * 0 = 0; rw [e2]
        | ⟨1, _⟩ => show win1_1.index t (1 : Fin 2) * 256 + 1 * q.val = q.val; rw [e3]; omega)
    show V c main_v44 (((cfg1.win 1).blk t).view.emb (ix2 (0 : Fin 1) q)) = b (ix1 q)
    rw [hemb, hb]
    exact shapeCast_a_1a_apply b shapeCasts_S256_S1x256 (0 : Fin 1) q
  · show win1_2.index t (0 : Fin 2) * 5000 + 1 * (j 0).val = 5000 * t.val + (j 0).val; rw [e4]; omega
  · show win1_2.index t (1 : Fin 2) * 256 + 1 * (j 1).val = (j 1).val; rw [e5]; omega

/-- An index of the result is in point t's block iff its row lies in row block t. -/
theorem mem_blk (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v45).slice (win1_2.rect t)).set ↔ _
  rw [View.set_slice_whole, Rect.mem_set_unit]
  exact Iff.rfl

/-- Every row lies in one of the ten row blocks. -/
theorem cover (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  let t : Fin cfg1.N := ⟨(i 0).val / 5000, by rw [show cfg1.N = 10 from N_1]; omega⟩
  obtain ⟨-, -, -, -, e4, e5⟩ := idx_facts t
  have e4' : win1_2.index t (0 : Fin 2) = (i 0).val / 5000 := e4
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; rw [e4']; omega
  | ⟨1, _⟩ => show win1_2.index t (1 : Fin 2) * 256 ≤ (i 1).val ∧ (i 1).val < win1_2.index t (1 : Fin 2) * 256 + 256; rw [e5]; omega

/-- The result array after the stage is the whole-array operation of the two arrays the stage found. -/
theorem value (c : Dev nD) (b : (⟨S256, .f32⟩ : BufTy).Contents (Elt Ideal))
    (hb : V c main_v44 = shapeCast S1x256 b shapeCasts_S256_S1x256) :
    (dat1 (F := Ideal) V c).arrAt 2 cfg1.N = Cert.Gcn.positivePart (F := Ideal) (Cert.Gcn.addBias (F := Ideal) (V c main_v43) b) :=
  (dat1 (F := Ideal) V c).arrAt_eq_of_cover 2 _ (fun t _ => flushed_eq V c b hb t) cover

end Cert.KernelIdeal.Region1

end
-- ==== Proof.Region2.lean ====
/-
  Stage 3 of the kernel's program: the product h · W2, computed in ten row blocks of 5000 rows.

  At grid point t the body reads rows 5000 t … 5000 t + 4999 of the hidden features h and the whole of W2,
  multiplies them (the operands narrowed on the way in, which changes nothing at the ideal values; the accumulator
  starts at zero) and writes the 5000 × 256 block back to the same rows of the result.  Entry (p, q) of that block
  is Σ_k h(5000 t + p, k) · W2(k, q), which is entry (5000 t + p, q) of the whole product; the ten blocks cover
  every row, so the array ends holding the whole product.
-/
import proofs.«138691_j45208825757774_1_alg».proof.Proof.Gen.KernelIdeal.Frame
import proofs.«138691_j45208825757774_1_alg».proof.Proof.Spec
import proofs.«138691_j45208825757774_1_alg».proof.Proof.LibRowOps
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat Cfg Window)

theorem hz : (![0, 0] : Fin 2 → Nat) = fun _ => 0 := funext fun a => by fin_cases a <;> rfl

/-- Where the three windows sit at grid point t: the h block and the result block at row block t, W2 whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's product at (p, q): row p of the h block against column q of W2. -/
theorem pay_apply (x0 : Vec Ideal S5000x256 .f32) (x1 : Vec Ideal S256x256 .f32) (p : Fin 5000) (q : Fin 256) :
    k2_pay1 (F := Ideal) x0 x1 (ix2 p q) = ∑ k : Fin 256, x0 (ix2 p k) * x1 (ix2 k q) := by
  unfold k2_pay1
  rw [shapeCast_self]
  exact RowOps.matmul_plain_apply (M := 5000) (K := 256) (N := 256) _ rfl none
    (truncf .bf16 x0 bitsLt_bf16_f32) (truncf .bf16 x1 bitsLt_bf16_f32) p q

/-- One entry of one block is the matching entry of the whole product, given that the h block holds rows
    5000 t … of X and the W block is W. -/
theorem point (X : (⟨Cert.ReferenceIdeal.S50000x256, .f32⟩ : BufTy).Contents (Elt Ideal))
    (W : (⟨Cert.ReferenceIdeal.S256x256, .f32⟩ : BufTy).Contents (Elt Ideal))
    (x0 : Vec Ideal S5000x256 .f32) (x1 : Vec Ideal S256x256 .f32) (t : ℕ)
    (h0 : ∀ (p : Fin 5000) (k : Fin 256) (p' : Fin 50000), p'.val = 5000 * t + p.val → x0 (ix2 p k) = X (ix2 p' k))
    (h1 : ∀ (k : Fin 256) (q : Fin 256), x1 (ix2 k q) = W (ix2 k q))
    (j : S5000x256.Idx) (i : Cert.ReferenceIdeal.S50000x256.Idx)
    (hi0 : (i 0).val = 5000 * t + (j 0).val) (hi1 : (i 1).val = (j 1).val) :
    k2_pay1 (F := Ideal) x0 x1 j = Cert.Gcn.project2 (F := Ideal) X W i := by
  obtain ⟨p, q, rfl⟩ : ∃ (p : Fin 5000) (q : Fin 256), j = ix2 p q := ⟨j 0, j 1, eq_ix2 j⟩
  obtain ⟨p', q', rfl⟩ : ∃ (p' : Fin 50000) (q' : Fin 256), i = ix2 p' q' := ⟨i 0, i 1, eq_ix2 i⟩
  have hq : q' = q := Fin.ext hi1
  subst hq
  rw [pay_apply]
  unfold Cert.Gcn.project2
  rw [RowOps.dotGeneral_plain_apply (M := 50000) (K := 256) (N := 256)
    Cert.ReferenceIdeal.dot_S50000x256_S256x256_S50000x256_1_0_0_1_n_n rfl none X W p' q']
  exact Finset.sum_congr rfl fun k _ => by rw [h0 p k p' hi0, h1 k q']

variable (V : (c : Dev nD) → (b : Ref sig .tc) → Buf (Elt Ideal) ((c : Thread nD τ).loc b))

/-- What point t writes back is block t of the whole product. -/
theorem flushed_eq (c : Dev nD) (t : Fin cfg2.N) :
    (dat2 (F := Ideal) V c).flushed 2 t
      = ((cfg2.win 2).blk t).view.read (Elt Ideal) (Cert.Gcn.project2 (F := Ideal) (V c main_v45) (V c main_arg4)) := by
  show (cfg2.win 2).cut (grid2.coords t) ((dat2 (F := Ideal) V c).after 2 t) = _
  rw [after2_2]
  unfold out2_2
  rw [View.canon_unit_zero hz]
  simp only [View.ld_unit_zero (S := S5000x256) hz, View.ld_unit_zero (S := S256x256) hz]
  obtain ⟨e0, e1, e2, e3, e4, e5⟩ := idx_facts t
  funext j
  refine point (V c main_v45) (V c main_arg4) (iblk2 V c 0 t) (iblk2 V c 1 t) t.val ?_ ?_ j
    (((cfg2.win 2).blk t).view.emb j) ?_ ?_
  · intro p k p' hp
    show V c main_v45 (((cfg2.win 0).blk t).view.emb (ix2 p k)) = V c main_v45 (ix2 p' k)
    refine congrArg (V c main_v45) (funext fun a => Fin.ext ?_)
    match a with
    | ⟨0, _⟩ => show win2_0.index t (0 : Fin 2) * 5000 + 1 * p.val = p'.val; rw [e0, hp]; omega
    | ⟨1, _⟩ => show win2_0.index t (1 : Fin 2) * 256 + 1 * k.val = k.val; rw [e1]; omega
  · intro k q
    show V c main_arg4 (((cfg2.win 1).blk t).view.emb (ix2 k q)) = V c main_arg4 (ix2 k q)
    refine congrArg (V c main_arg4) (funext fun a => Fin.ext ?_)
    match a with
    | ⟨0, _⟩ => show win2_1.index t (0 : Fin 2) * 256 + 1 * k.val = k.val; rw [e2]; omega
    | ⟨1, _⟩ => show win2_1.index t (1 : Fin 2) * 256 + 1 * q.val = q.val; rw [e3]; omega
  · show win2_2.index t (0 : Fin 2) * 5000 + 1 * (j 0).val = 5000 * t.val + (j 0).val; rw [e4]; omega
  · show win2_2.index t (1 : Fin 2) * 256 + 1 * (j 1).val = (j 1).val; rw [e5]; omega

/-- An index of the result is in point t's block iff its row lies in row block t. -/
theorem mem_blk (t : Fin cfg2.N) (i : S50000x256.Idx) :
    i ∈ ((cfg2.win 2).blk t).view.set ↔ ∀ a : Fin 2, win2_2.index t a * S5000x256.size a ≤ (i a).val ∧ (i a).val < win2_2.index t a * S5000x256.size a + S5000x256.size a := by
  show i ∈ ((View.whole main_v46).slice (win2_2.rect t)).set ↔ _
  rw [View.set_slice_whole, Rect.mem_set_unit]
  exact Iff.rfl

/-- Every row lies in one of the ten row blocks. -/
theorem cover (i : S50000x256.Idx) : ∃ t : Fin cfg2.N, (cfg2.win 2).flush t = true ∧ i ∈ ((cfg2.win 2).blk t).view.set := by
  have hi0 : (i 0).val < 50000 := (i 0).isLt
  have hi1 : (i 1).val < 256 := (i 1).isLt
  let t : Fin cfg2.N := ⟨(i 0).val / 5000, by rw [show cfg2.N = 10 from N_2]; omega⟩
  obtain ⟨-, -, -, -, e4, e5⟩ := idx_facts t
  have e4' : win2_2.index t (0 : Fin 2) = (i 0).val / 5000 := e4
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; rw [e4']; omega
  | ⟨1, _⟩ => show win2_2.index t (1 : Fin 2) * 256 ≤ (i 1).val ∧ (i 1).val < win2_2.index t (1 : Fin 2) * 256 + 256; rw [e5]; omega

/-- The result array after the stage is the whole product of the two arrays the stage found. -/
theorem value (c : Dev nD) :
    (dat2 (F := Ideal) V c).arrAt 2 cfg2.N = Cert.Gcn.project2 (F := Ideal) (V c main_v45) (V c main_arg4) :=
  (dat2 (F := Ideal) V c).arrAt_eq_of_cover 2 _ (fun t _ => flushed_eq V c t) cover

end Cert.KernelIdeal.Region2

end
-- ==== Proof.Region3.lean ====
/-
  Stage 4 of the kernel's program: the final bias, in ten row blocks of 5000 rows.

  At grid point t the body reads rows 5000 t … 5000 t + 4999 of the aggregated features and the bias laid out as
  one row, adds the bias row to every row of the block, and writes the block back to the same rows of the result.
  Entry (p, q) of the block is a(5000 t + p, q) + b(q), which is entry (5000 t + p, q) of a + b; the ten blocks
  cover every row.
-/
import proofs.«138691_j45208825757774_1_alg».proof.Proof.Gen.KernelIdeal.Frame
import proofs.«138691_j45208825757774_1_alg».proof.Proof.Spec
import proofs.«138691_j45208825757774_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.SL.Sem Idealize.ShloMosaic.ValueIdx
open Idealize.ShloMosaic.Pipeline (Dat Cfg Window)

theorem hz : (![0, 0] : Fin 2 → Nat) = fun _ => 0 := funext fun a => by fin_cases a <;> rfl

/-- Where the three windows sit at grid point t: the input block and the result block at row block t, the bias row whole. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The body's result at (p, q): the input's entry plus the bias row's entry in column q. -/
theorem pay_apply (x0 : Vec Ideal S5000x256 .f32) (x1 : Vec Ideal S1x256 .f32) (p : Fin 5000) (q : Fin 256) :
    k3_pay1 (F := Ideal) x0 x1 (ix2 p q) = x0 (ix2 p q) + x1 (ix2 (0 : Fin 1) q) := by
  unfold k3_pay1
  rw [addf_apply]
  simp only [shapeCast_self]
  rw [broadcastTo_1b_ab_apply]

/-- The whole-array operation at (p', q). -/
theorem spec_apply (A : (⟨Cert.ReferenceIdeal.S50000x256, .f32⟩ : BufTy).Contents (Elt Ideal))
    (b : (⟨Cert.ReferenceIdeal.S256, .f32⟩ : BufTy).Contents (Elt Ideal)) (p' : Fin 50000) (q : Fin 256) :
    Cert.Gcn.addBias (F := Ideal) A b (ix2 p' q) = A (ix2 p' q) + b (ix1 q) := by
  unfold Cert.Gcn.addBias
  rw [addf_apply, RowOps.bias_bcast_apply b ![1] rfl _ ![0, 1] rfl rfl _ p' q]

/-- One entry of one block is the matching entry of the whole-array operation, given that the input block holds rows
    5000 t … of A and the bias block is the row b. -/
theorem point (A : (⟨Cert.ReferenceIdeal.S50000x256, .f32⟩ : BufTy).Contents (Elt Ideal))
    (b : (⟨Cert.ReferenceIdeal.S256, .f32⟩ : BufTy).Contents (Elt Ideal))
    (x0 : Vec Ideal S5000x256 .f32) (x1 : Vec Ideal S1x256 .f32) (t : ℕ)
    (h0 : ∀ (p : Fin 5000) (q : Fin 256) (p' : Fin 50000), p'.val = 5000 * t + p.val → x0 (ix2 p q) = A (ix2 p' q))
    (h1 : ∀ (q : Fin 256), x1 (ix2 (0 : Fin 1) q) = b (ix1 q))
    (j : S5000x256.Idx) (i : Cert.ReferenceIdeal.S50000x256.Idx)
    (hi0 : (i 0).val = 5000 * t + (j 0).val) (hi1 : (i 1).val = (j 1).val) :
    k3_pay1 (F := Ideal) x0 x1 j = Cert.Gcn.addBias (F := Ideal) A b i := by
  obtain ⟨p, q, rfl⟩ : ∃ (p : Fin 5000) (q : Fin 256), j = ix2 p q := ⟨j 0, j 1, eq_ix2 j⟩
  obtain ⟨p', q', rfl⟩ : ∃ (p' : Fin 50000) (q' : Fin 256), i = ix2 p' q' := ⟨i 0, i 1, eq_ix2 i⟩
  have hq : q' = q := Fin.ext hi1
  subst hq
  rw [pay_apply, spec_apply, h0 p q' p' hi0, h1 q']

variable (V : (c : Dev nD) → (b : Ref sig .tc) → Buf (Elt Ideal) ((c : Thread nD τ).loc b))

/-- What point t writes back is block t of the whole-array operation. -/
theorem flushed_eq (c : Dev nD) (b : (⟨S256, .f32⟩ : BufTy).Contents (Elt Ideal))
    (hb : V c main_v86 = shapeCast S1x256 b shapeCasts_S256_S1x256) (t : Fin cfg3.N) :
    (dat3 (F := Ideal) V c).flushed 2 t
      = ((cfg3.win 2).blk t).view.read (Elt Ideal) (Cert.Gcn.addBias (F := Ideal) (V c main_v85) b) := by
  show (cfg3.win 2).cut (grid3.coords t) ((dat3 (F := Ideal) V c).after 2 t) = _
  rw [after3_2]
  unfold out3_2
  rw [View.canon_unit_zero hz]
  simp only [View.ld_unit_zero (S := S5000x256) hz, View.ld_unit_zero (S := S1x256) hz]
  obtain ⟨e0, e1, e2, e3, e4, e5⟩ := idx_facts t
  funext j
  refine point (V c main_v85) b (iblk3 V c 0 t) (iblk3 V c 1 t) t.val ?_ ?_ j
    (((cfg3.win 2).blk t).view.emb j) ?_ ?_
  · intro p q p' hp
    show V c main_v85 (((cfg3.win 0).blk t).view.emb (ix2 p q)) = V c main_v85 (ix2 p' q)
    refine congrArg (V c main_v85) (funext fun a => Fin.ext ?_)
    match a with
    | ⟨0, _⟩ => show win3_0.index t (0 : Fin 2) * 5000 + 1 * p.val = p'.val; rw [e0, hp]; omega
    | ⟨1, _⟩ => show win3_0.index t (1 : Fin 2) * 256 + 1 * q.val = q.val; rw [e1]; omega
  · intro q
    have hemb : ((cfg3.win 1).blk t).view.emb (ix2 (0 : Fin 1) q) = ix2 (0 : Fin 1) q :=
      funext fun a => Fin.ext (by
        match a with
        | ⟨0, _⟩ => show win3_1.index t (0 : Fin 2) * 1 + 1 * 0 = 0; rw [e2]
        | ⟨1, _⟩ => show win3_1.index t (1 : Fin 2) * 256 + 1 * q.val = q.val; rw [e3]; omega)
    show V c main_v86 (((cfg3.win 1).blk t).view.emb (ix2 (0 : Fin 1) q)) = b (ix1 q)
    rw [hemb, hb]
    exact shapeCast_a_1a_apply b shapeCasts_S256_S1x256 (0 : Fin 1) q
  · show win3_2.index t (0 : Fin 2) * 5000 + 1 * (j 0).val = 5000 * t.val + (j 0).val; rw [e4]; omega
  · show win3_2.index t (1 : Fin 2) * 256 + 1 * (j 1).val = (j 1).val; rw [e5]; omega

/-- An index of the result is in point t's block iff its row lies in row block t. -/
theorem mem_blk (t : Fin cfg3.N) (i : S50000x256.Idx) :
    i ∈ ((cfg3.win 2).blk t).view.set ↔ ∀ a : Fin 2, win3_2.index t a * S5000x256.size a ≤ (i a).val ∧ (i a).val < win3_2.index t a * S5000x256.size a + S5000x256.size a := by
  show i ∈ ((View.whole main_v87).slice (win3_2.rect t)).set ↔ _
  rw [View.set_slice_whole, Rect.mem_set_unit]
  exact Iff.rfl

/-- Every row lies in one of the ten row blocks. -/
theorem cover (i : S50000x256.Idx) : ∃ t : Fin cfg3.N, (cfg3.win 2).flush t = true ∧ i ∈ ((cfg3.win 2).blk t).view.set := by
  have hi0 : (i 0).val < 50000 := (i 0).isLt
  have hi1 : (i 1).val < 256 := (i 1).isLt
  let t : Fin cfg3.N := ⟨(i 0).val / 5000, by rw [show cfg3.N = 10 from N_3]; omega⟩
  obtain ⟨-, -, -, -, e4, e5⟩ := idx_facts t
  have e4' : win3_2.index t (0 : Fin 2) = (i 0).val / 5000 := e4
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; rw [e4']; omega
  | ⟨1, _⟩ => show win3_2.index t (1 : Fin 2) * 256 ≤ (i 1).val ∧ (i 1).val < win3_2.index t (1 : Fin 2) * 256 + 256; rw [e5]; omega

/-- The result array after the stage is the whole-array operation of the two arrays the stage found. -/
theorem value (c : Dev nD) (b : (⟨S256, .f32⟩ : BufTy).Contents (Elt Ideal))
    (hb : V c main_v86 = shapeCast S1x256 b shapeCasts_S256_S1x256) :
    (dat3 (F := Ideal) V c).arrAt 2 cfg3.N = Cert.Gcn.addBias (F := Ideal) (V c main_v85) b :=
  (dat3 (F := Ideal) V c).arrAt_eq_of_cover 2 _ (fun t _ => flushed_eq V c b hb t) cover

end Cert.KernelIdeal.Region3

end
-- ==== Proof.KernelValue.lean ====
/-
  The kernel's program, stage by stage, computes the network of Spec.lean.

  The contents of the buffers at the boundaries between the program's segments are a fold from the launch
  memory (the generated frame's W0 … W11).  Reading that fold at the buffers that matter:
    after stage 1   the product x · W1                              (main_v4),
    after stage 2   relu (aggregate (x · W1) + b1), the hidden features   (main_v45),
    after stage 3   hidden · W2                                     (main_v46),
    after stage 4   aggregate (hidden · W2) + b2, the network's result    (main_v87).
  Each stage is a whole-array operation of what it finds (Region0 … Region3), each host stretch an aggregation of
  what it finds (Stretch), and the arguments and the two rows of the edge list come through untouched.
-/
import proofs.«138691_j45208825757774_1_alg».proof.Proof.Gen.KernelIdeal.Frame
import proofs.«138691_j45208825757774_1_alg».proof.Proof.Spec
import proofs.«138691_j45208825757774_1_alg».proof.Proof.Stretch
import proofs.«138691_j45208825757774_1_alg».proof.Proof.Region0
import proofs.«138691_j45208825757774_1_alg».proof.Proof.Region1
import proofs.«138691_j45208825757774_1_alg».proof.Proof.Region2
import proofs.«138691_j45208825757774_1_alg».proof.Proof.Region3

set_option maxRecDepth 16384

noncomputable section

namespace Cert.KernelIdeal.Stages

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## What stage 1 finds and leaves -/

theorem x_in (c : Dev nD) : V1 m ρ c main_arg0 = m ((c : Thread nD τ).loc main_arg0) :=
  Host.before_arg0 (W0 m ρ c)
theorem w1_in (c : Dev nD) : V1 m ρ c main_arg2 = m ((c : Thread nD τ).loc main_arg2) :=
  Host.before_arg2 (W0 m ρ c)

/-- After stage 1, main_v4 holds x · W1. -/
theorem stage1 (c : Dev nD) :
    W2 m ρ c (Proc.devRef .tc main_v4)
      = Cert.Gcn.project1 (F := Ideal) (m ((c : Thread nD τ).loc main_arg0)) (m ((c : Thread nD τ).loc main_arg2)) := by
  rw [show W2 m ρ c (Proc.devRef .tc main_v4) = (dat0 (V1 m ρ) c).arrAt 2 cfg0.N from W2_arr m ρ c 2,
    Region0.value (V1 m ρ) c, x_in, w1_in]

/-- The rows of the edge list, where stage 2's stretch reads them. -/
theorem sources_at2 (c : Dev nD) :
    W2 m ρ c (Proc.devRef .tc main_v1) = Cert.Gcn.sources (F := Ideal) (m ((c : Thread nD τ).loc main_arg1)) :=
  (W2_of_ne m ρ c main_v1 (by decide)).trans (Host.sources_eq (W0 m ρ c))
theorem targets_at2 (c : Dev nD) :
    W2 m ρ c (Proc.devRef .tc main_v3) = Cert.Gcn.targets (F := Ideal) (m ((c : Thread nD τ).loc main_arg1)) :=
  (W2_of_ne m ρ c main_v3 (by decide)).trans (Host.targets_eq (W0 m ρ c))
theorem b1_at2 (c : Dev nD) : W2 m ρ c (Proc.devRef .tc main_arg3) = m ((c : Thread nD τ).loc main_arg3) :=
  (W2_of_ne m ρ c main_arg3 (by decide)).trans (Host.before_arg3 (W0 m ρ c))
theorem w2_at2 (c : Dev nD) : W2 m ρ c (Proc.devRef .tc main_arg4) = m ((c : Thread nD τ).loc main_arg4) :=
  (W2_of_ne m ρ c main_arg4 (by decide)).trans (Host.before_arg4 (W0 m ρ c))
theorem b2_at2 (c : Dev nD) : W2 m ρ c (Proc.devRef .tc main_arg5) = m ((c : Thread nD τ).loc main_arg5) :=
  (W2_of_ne m ρ c main_arg5 (by decide)).trans (Host.before_arg5 (W0 m ρ c))

/-! ## Stage 2 -/

/-- Stage 2 finds the aggregation of x · W1 … -/
theorem agg1_in (c : Dev nD) :
    V5 m ρ c main_v43 = Cert.Gcn.aggregate (F := Ideal)
      (Cert.Gcn.project1 (F := Ideal) (m ((c : Thread nD τ).loc main_arg0)) (m ((c : Thread nD τ).loc main_arg2)))
      (Cert.Gcn.sources (F := Ideal) (m ((c : Thread nD τ).loc main_arg1)))
      (Cert.Gcn.targets (F := Ideal) (m ((c : Thread nD τ).loc main_arg1))) := by
  show StableHlo.after hostOps1_2 (StableHlo.after hostOps1_1 (StableHlo.after hostOps1 (W2 m ρ c))) (Proc.devRef .tc main_v43) = _
  rw [Host.aggregate1_eq, stage1, sources_at2, targets_at2]

/-- … and the first bias laid out as a row. -/
theorem b1_in (c : Dev nD) :
    V5 m ρ c main_v44 = shapeCast S1x256 (m ((c : Thread nD τ).loc main_arg3)) shapeCasts_S256_S1x256 := by
  show StableHlo.after hostOps1_2 (StableHlo.after hostOps1_1 (StableHlo.after hostOps1 (W2 m ρ c))) (Proc.devRef .tc main_v44) = _
  rw [Host.bias1_eq, b1_at2]

/-- After stage 2, main_v45 holds the hidden features. -/
theorem stage2 (c : Dev nD) :
    W6 m ρ c (Proc.devRef .tc main_v45)
      = Cert.Gcn.hidden (F := Ideal) (m ((c : Thread nD τ).loc main_arg0)) (m ((c : Thread nD τ).loc main_arg1))
          (m ((c : Thread nD τ).loc main_arg2)) (m ((c : Thread nD τ).loc main_arg3)) := by
  rw [show W6 m ρ c (Proc.devRef .tc main_v45) = (dat1 (V5 m ρ) c).arrAt 2 cfg1.N from W6_arr m ρ c 2,
    Region1.value (V5 m ρ) c _ (b1_in m ρ c), agg1_in]
  rfl

/-! ## Stage 3 -/

theorem w2_in (c : Dev nD) : V6 m ρ c main_arg4 = m ((c : Thread nD τ).loc main_arg4) :=
  (W6_of_ne m ρ c main_arg4 (by decide)).trans ((Host.through1_arg4 (W2 m ρ c)).trans (w2_at2 m ρ c))

/-- After stage 3, main_v46 holds hidden · W2. -/
theorem stage3 (c : Dev nD) :
    W7 m ρ c (Proc.devRef .tc main_v46)
      = Cert.Gcn.project2 (F := Ideal)
          (Cert.Gcn.hidden (F := Ideal) (m ((c : Thread nD τ).loc main_arg0)) (m ((c : Thread nD τ).loc main_arg1))
            (m ((c : Thread nD τ).loc main_arg2)) (m ((c : Thread nD τ).loc main_arg3)))
          (m ((c : Thread nD τ).loc main_arg4)) := by
  rw [show W7 m ρ c (Proc.devRef .tc main_v46) = (dat2 (V6 m ρ) c).arrAt 2 cfg2.N from W7_arr m ρ c 2,
    Region2.value (V6 m ρ) c, w2_in,
    show V6 m ρ c main_v45 = W6 m ρ c (Proc.devRef .tc main_v45) from rfl, stage2]

/-! ## Stage 4 -/

theorem sources_at7 (c : Dev nD) :
    W7 m ρ c (Proc.devRef .tc main_v1) = Cert.Gcn.sources (F := Ideal) (m ((c : Thread nD τ).loc main_arg1)) :=
  (W7_of_ne m ρ c main_v1 (by decide)).trans ((W6_of_ne m ρ c main_v1 (by decide)).trans
    ((Host.through1_v1 (W2 m ρ c)).trans (sources_at2 m ρ c)))
theorem targets_at7 (c : Dev nD) :
    W7 m ρ c (Proc.devRef .tc main_v3) = Cert.Gcn.targets (F := Ideal) (m ((c : Thread nD τ).loc main_arg1)) :=
  (W7_of_ne m ρ c main_v3 (by decide)).trans ((W6_of_ne m ρ c main_v3 (by decide)).trans
    ((Host.through1_v3 (W2 m ρ c)).trans (targets_at2 m ρ c)))
theorem b2_at7 (c : Dev nD) : W7 m ρ c (Proc.devRef .tc main_arg5) = m ((c : Thread nD τ).loc main_arg5) :=
  (W7_of_ne m ρ c main_arg5 (by decide)).trans ((W6_of_ne m ρ c main_arg5 (by decide)).trans
    ((Host.through1_arg5 (W2 m ρ c)).trans (b2_at2 m ρ c)))

/-- Stage 4 finds the aggregation of hidden · W2 … -/
theorem agg2_in (c : Dev nD) :
    V10 m ρ c main_v85 = Cert.Gcn.aggregate (F := Ideal)
      (Cert.Gcn.project2 (F := Ideal)
          (Cert.Gcn.hidden (F := Ideal) (m ((c : Thread nD τ).loc main_arg0)) (m ((c : Thread nD τ).loc main_arg1))
            (m ((c : Thread nD τ).loc main_arg2)) (m ((c : Thread nD τ).loc main_arg3)))
          (m ((c : Thread nD τ).loc main_arg4)))
      (Cert.Gcn.sources (F := Ideal) (m ((c : Thread nD τ).loc main_arg1)))
      (Cert.Gcn.targets (F := Ideal) (m ((c : Thread nD τ).loc main_arg1))) := by
  show StableHlo.after hostOps3_2 (StableHlo.after hostOps3_1 (StableHlo.after hostOps3 (W7 m ρ c))) (Proc.devRef .tc main_v85) = _
  rw [Host.aggregate2_eq, stage3, sources_at7, targets_at7]

/-- … and the second bias laid out as a row. -/
theorem b2_in (c : Dev nD) :
    V10 m ρ c main_v86 = shapeCast S1x256 (m ((c : Thread nD τ).loc main_arg5)) shapeCasts_S256_S1x256 := by
  show StableHlo.after hostOps3_2 (StableHlo.after hostOps3_1 (StableHlo.after hostOps3 (W7 m ρ c))) (Proc.devRef .tc main_v86) = _
  rw [Host.bias2_eq, b2_at7]

/-- After stage 4, the result array main_v87 holds the network of the six arguments. -/
theorem result (c : Dev nD) :
    W11 m ρ c (Proc.devRef .tc main_v87)
      = Cert.Gcn.network (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  rw [show W11 m ρ c (Proc.devRef .tc main_v87) = (dat3 (V10 m ρ) c).arrAt 2 cfg3.N from W11_arr m ρ c 2,
    Region3.value (V10 m ρ) c _ (b2_in m ρ c), agg2_in]
  rfl

end Cert.KernelIdeal.Stages

end
-- ==== Proof.RefValue.lean ====
/-
  The reference program's result is the network of Spec.lean, term for term: its composed result term IS
  `Cert.Gcn.network` of the six arguments once the named pieces (sources, targets, loops, degree, weight,
  coefficient, aggregate, the two products, bias and positive part) are unfolded.
-/
import proofs.«138691_j45208825757774_1_alg».proof.Proof.RefRun
import proofs.«138691_j45208825757774_1_alg».proof.Proof.Spec

noncomputable section

namespace Cert.ReferenceIdeal.RefValue

open Cert.ReferenceIdeal Cert.ReferenceIdeal.Gen Idealize.ShloMosaic Idealize.ShloMosaic.TcCoe Idealize.SL.Sem

variable {F : FTy → Type} [FloatOps F]

set_option maxRecDepth 16384 in
/-- The run's result term, at any float family, is the network applied to the arguments as launched. -/
theorem result_eq (m : (ℓ : Loc nD τ sig) → Buf (Elt F) ℓ) (c : Dev nD) :
    Cert.ReferenceIdeal.Value.res_main_v90 m c
      = Cert.Gcn.network (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.Value.res_main_v90
  rfl

end Cert.ReferenceIdeal.RefValue

end
-- ==== Proof.lean ====
/-
  A two-layer graph convolution with symmetric normalisation and self loops, in two programs.

  The reference computes  out = aggregate (relu (aggregate (x · W1) + b1) · W2) + b2  with host operations only
  (Spec.lean writes this network once, over the reference's own operations).  The kernel's program computes the
  two matrix products and the two bias stages in tiled kernels of ten row blocks each, and the aggregations
  between them with the same host operations as the reference.

  Why the two agree at the ideal values, entry by entry:
    * a tiled product's block t is rows 5000 t … of the whole product: each entry is the same sum over k of
      x(row, k) · W(k, col); narrowing the operands on the way into the product is the identity on ideal values,
      and the accumulator starts at zero (Region0, Region2);
    * a bias stage's block t is rows 5000 t … of  a + b  (and of its positive part in the first layer): the bias
      laid out as one row and repeated down the block is the bias added to every row (Region1, Region3);
    * the ten blocks of a stage cover every row, so each stage leaves the whole-array operation of what it found;
    * the host stretches between the stages are the reference's aggregation, operation for operation (Stretch);
    * so the result array ends holding the network of the arguments (KernelValue), which is the term the
      reference's run ends at (RefValue).  No law of arithmetic beyond these identities is used, so finiteness of
      the inputs plays no part.

  The three frames: the two kernel programs' are the generated frame certificates; the reference's is its run with
  the result dropped.  The idealisation rewrote nothing, so the kernel is its own idealisation.
-/
import proofs.«138691_j45208825757774_1_alg».proof.Defs
import proofs.«138691_j45208825757774_1_alg».proof.Proof.Gen.Kernel
import proofs.«138691_j45208825757774_1_alg».proof.Proof.Gen.Kernel.Skeleton
import proofs.«138691_j45208825757774_1_alg».proof.Proof.Gen.Kernel.Launch
import proofs.«138691_j45208825757774_1_alg».proof.Proof.Gen.Kernel.Points
import proofs.«138691_j45208825757774_1_alg».proof.Proof.Gen.Kernel.Frame
import proofs.«138691_j45208825757774_1_alg».proof.Proof.Gen.KernelIdeal
import proofs.«138691_j45208825757774_1_alg».proof.Proof.Gen.KernelIdeal.Skeleton
import proofs.«138691_j45208825757774_1_alg».proof.Proof.Gen.KernelIdeal.Launch
import proofs.«138691_j45208825757774_1_alg».proof.Proof.Gen.KernelIdeal.Points
import proofs.«138691_j45208825757774_1_alg».proof.Proof.Gen.KernelIdeal.Frame
import proofs.«138691_j45208825757774_1_alg».proof.Proof.Gen.ReferenceIdeal
import proofs.«138691_j45208825757774_1_alg».proof.Proof.Gen.Pre_finite_inputs
import proofs.«138691_j45208825757774_1_alg».proof.Proof.KernelRun
import proofs.«138691_j45208825757774_1_alg».proof.Proof.KernelValue
import proofs.«138691_j45208825757774_1_alg».proof.Proof.RefRun
import proofs.«138691_j45208825757774_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the network of the arguments in their result array: the kernel's by its four stages and the
    stretches between them, the reference's by its run; the arguments agree, so the results are equal. -/
theorem algebraic : Cert.algebraic_KernelIdeal_ReferenceIdeal := by
  intro m ρ m' ρ' _ hagree
  refine ⟨fun c => Cert.Gcn.network (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Stages.result m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_eq]
    obtain ⟨a0, a1, a2, a3, a4, a5⟩ := hagree c
    rw [a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
